-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x512 : Shape := ⟨2, ![128, 512]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S2x800000 32) (main_arg2 : FVec F S128x512 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S128x512 : Shape := ⟨2, ![128, 512]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x512 : Shape := ⟨2, ![50000, 512]⟩
abbrev S512x128 : Shape := ⟨2, ![512, 128]⟩
abbrev S1x128 : Shape := ⟨2, ![1, 128]⟩
abbrev S5000x512 : Shape := ⟨2, ![5000, 512]⟩
abbrev S5000x128 : Shape := ⟨2, ![5000, 128]⟩

abbrev nBuf : Space → Nat
  | .hbm => 75
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x512, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S50000x1, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S50000x512, .f32⟩
  | .hbm, ⟨72, _⟩ => ⟨S512x128, .f32⟩
  | .hbm, ⟨73, _⟩ => ⟨S1x128, .f32⟩
  | .hbm, ⟨74, _⟩ => ⟨S50000x128, .f32⟩
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_8 : Ref sig .tc := ⟨.hbm, 52, rfl⟩
abbrev main_v38 : Ref sig .tc := ⟨.hbm, 53, rfl⟩
abbrev main_v39 : Ref sig .tc := ⟨.hbm, 54, rfl⟩
abbrev main_c_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  concatenates_S50000x128_S50000x128_S50000x128_S50000x128_S50000x512_d1 : Shape.Concatenates [S50000x128, S50000x128, S50000x128, S50000x128] S50000x512 1
  transposes_S128x512_S512x128_1_0 : S128x512.Transposes [1, 0] S512x128
  shapeCasts_S128_S1x128 : S128.ShapeCasts S1x128
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x512_S512x128_S5000x128_1_0_0_1_n_n_wf : DotDims.WF S5000x512 S512x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf

abbrev win0_0 : Pipeline.Window sig grid0 :=
  Pipeline.Window.ofSpec (Memref.whole main_v53) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v54) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v55) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v56) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x512 : Shape := ⟨2, ![128, 512]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S50000x512 : Shape := ⟨2, ![50000, 512]⟩
abbrev S512x128 : Shape := ⟨2, ![512, 128]⟩
abbrev S1x128 : Shape := ⟨2, ![1, 128]⟩

abbrev nBuf : Space → Nat
  | .hbm => 94
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x512, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S_, .f32⟩
  | .hbm, ⟨18, _⟩ => ⟨S50000x128, .f32⟩
  | .hbm, ⟨19, _⟩ => ⟨S800000x1, .i32⟩
  | .hbm, ⟨20, _⟩ => ⟨S50000x128, .f32⟩
  | .hbm, ⟨21, _⟩ => ⟨S_, .f32⟩
  | .hbm, ⟨22, _⟩ => ⟨S800000x1, .f32⟩
  | .hbm, ⟨23, _⟩ => ⟨S_, .f32⟩
  | .hbm, ⟨24, _⟩ => ⟨S50000x1, .f32⟩
  | .hbm, ⟨25, _⟩ => ⟨S800000x1, .i32⟩
  | .hbm, ⟨26, _⟩ => ⟨S50000x1, .f32⟩
  | .hbm, ⟨27, _⟩ => ⟨S_, .f32⟩
  | .hbm, ⟨28, _⟩ => ⟨S50000x1, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S_, .f32⟩
  | .hbm, ⟨46, _⟩ => ⟨S800000x1, .f32⟩
  | .hbm, ⟨47, _⟩ => ⟨S_, .f32⟩
  | .hbm, ⟨48, _⟩ => ⟨S50000x1, .f32⟩
  | .hbm, ⟨49, _⟩ => ⟨S800000x1, .i32⟩
  | .hbm, ⟨50, _⟩ => ⟨S50000x1, .f32⟩
  | .hbm, ⟨51, _⟩ => ⟨S_, .f32⟩
  | .hbm, ⟨52, _⟩ => ⟨S50000x1, .f32⟩
  | .hbm, ⟨53, _⟩ => ⟨S50000x1, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S_, .f32⟩
  | .hbm, ⟨74, _⟩ => ⟨S800000x1, .f32⟩
  | .hbm, ⟨75, _⟩ => ⟨S_, .f32⟩
  | .hbm, ⟨76, _⟩ => ⟨S50000x1, .f32⟩
  | .hbm, ⟨77, _⟩ => ⟨S800000x1, .i32⟩
  | .hbm, ⟨78, _⟩ => ⟨S50000x1, .f32⟩
  | .hbm, ⟨79, _⟩ => ⟨S_, .f32⟩
  | .hbm, ⟨80, _⟩ => ⟨S50000x1, .f32⟩
  | .hbm, ⟨81, _⟩ => ⟨S50000x1, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S50000x512, .f32⟩
  | .hbm, ⟨89, _⟩ => ⟨S512x128, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_11 : Ref sig .tc := ⟨.hbm, 60, rfl⟩
abbrev main_v43 : Ref sig .tc := ⟨.hbm, 61, rfl⟩
abbrev main_v44 : Ref sig .tc := ⟨.hbm, 62, rfl⟩
abbrev main_c_12 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_13 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_cst_15 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_16 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  concatenates_S50000x128_S50000x128_S50000x128_S50000x128_S50000x512_d1 : Shape.Concatenates [S50000x128, S50000x128, S50000x128, S50000x128] S50000x512 1
  transposes_S128x512_S512x128_1_0 : S128x512.Transposes [1, 0] S512x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x512_S512x128_S50000x128_1_0_0_1_n_n_wf : DotDims.WF S50000x512 S512x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf

class Facts : Prop extends Facts₀ where

variable [Facts]
-- ==== Proof.KernelFrame.lean ====
import proofs.«110258_j5179730559345_1_alg».proof.Proof.Gen.Kernel.Launch
import proofs.«110258_j5179730559345_1_alg».proof.Proof.Gen.Kernel.Skeleton
import proofs.«110258_j5179730559345_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the seventy host operations. -/
abbrev V (c : Dev nD) (b : Ref sig .tc) : Buf (Elt F) ((c : Thread nD τ).loc b) := StableHlo.after hostOps0 (fun b => m (c, b)) b

set_option maxHeartbeats 4000000 in
/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 4000000 in
/-- No host operation writes the node-feature argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 4000000 in
/-- No host operation writes the edge-list argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 4000000 in
/-- No host operation writes the weight argument. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 4000000 in
/-- No host operation writes the bias argument. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature window's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight window's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The bias window's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run's -/

/-- The four argument arrays are no window's array, so a run that leaves every such buffer as the region found it
    leaves them as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's accesses -/

abbrev rFeat : Rect S5000x512 := Rect.unit (s := S5000x512) ![0, 0] S5000x512.size inb_S5000x512_S5000x512_0_0
abbrev rWeight : Rect S512x128 := Rect.unit (s := S512x128) ![0, 0] S512x128.size inb_S512x128_S512x128_0_0
abbrev rBias : Rect S1x128 := Rect.unit (s := S1x128) ![0, 0] S1x128.size inb_S1x128_S1x128_0_0
abbrev rOut : Rect S5000x128 := Rect.unit (s := S5000x128) ![0, 0] S5000x128.size inb_S5000x128_S5000x128_0_0

/-- The output block after the body: its one store, over the three input blocks. -/
def outBlock (x0 : Vec F S5000x512 .f32) (x1 : Vec F S512x128 .f32) (x2 : Vec F S1x128 .f32) : Vec F S5000x128 .f32 :=
  View.canon [⟨rOut, k0_pay1 (View.ld x0 rFeat) (View.ld x1 rWeight) (View.ld x2 rBias)⟩]

/-- The one store covers the output block. -/
theorem outCover (p0 : Vec F S5000x128 .f32) (y : S5000x128.Idx) :
    ∃ pc ∈ ([⟨rOut, p0⟩] : List (View.Piece (Elt F) S5000x128 .f32)), y ∈ pc.1.set :=
  View.cover_of_tiled [⟨rOut, p0⟩] S5000x128.size (by rfl) y

/-! ## The body's triple -/

set_option maxHeartbeats 1000000 in
/-- The body on whole staging buffers, the inputs' at contents `x0 x1 x2` and the output's at anything, runs to the
    continuation with the inputs' as they were and the output's at `outBlock` of them. -/
theorem sound_kernel (c : Dev nD) (E : Set ℕ) (i : grid0.Coords) (arg1 : Memref sig .tc .vmem S5000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x512 .f32) (x1 : Vec F S512x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outBlock x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-! ## The pipeline's proof data -/

/-- The arrays as the region finds them; after the body each input buffer at its block and the output buffer at
    `outBlock` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outBlock (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; the four window arrays end at what the proof data gives and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Region

end
-- ==== Proof.KernelIdealFrame.lean ====
/-
  The frame of the propagate-then-project program, at any float family.

  @main is seventy host operations followed by one pipelined matrix product over ten row blocks. The host
  operations write only their own result buffers, so the four argument arrays reach the region as launched; the
  region's body reads its three input blocks (5000 rows of the 512-column feature array, the whole 512 x 128
  weight array, the 1 x 128 bias row), reads the output block once without using what it read, and overwrites the
  whole output block with one store. Hence every execution terminates without a fault, the output array ends at
  the blocks the body left, and every other array is as the region found it.
-/
import proofs.«110258_j5179730559345_1_alg».proof.Proof.Gen.KernelIdeal.Launch
import proofs.«110258_j5179730559345_1_alg».proof.Proof.Gen.KernelIdeal.Skeleton
import proofs.«110258_j5179730559345_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the seventy host operations. -/
abbrev V (c : Dev nD) (b : Ref sig .tc) : Buf (Elt F) ((c : Thread nD τ).loc b) := StableHlo.after hostOps0 (fun b => m (c, b)) b

set_option maxHeartbeats 4000000 in
/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 4000000 in
/-- No host operation writes the node-feature argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 4000000 in
/-- No host operation writes the edge-list argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 4000000 in
/-- No host operation writes the weight argument. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 4000000 in
/-- No host operation writes the bias argument. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature window's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight window's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The bias window's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run's -/

/-- The four argument arrays are no window's array, so a run that leaves every such buffer as the region found it
    leaves them as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's accesses -/

abbrev rFeat : Rect S5000x512 := Rect.unit (s := S5000x512) ![0, 0] S5000x512.size inb_S5000x512_S5000x512_0_0
abbrev rWeight : Rect S512x128 := Rect.unit (s := S512x128) ![0, 0] S512x128.size inb_S512x128_S512x128_0_0
abbrev rBias : Rect S1x128 := Rect.unit (s := S1x128) ![0, 0] S1x128.size inb_S1x128_S1x128_0_0
abbrev rOut : Rect S5000x128 := Rect.unit (s := S5000x128) ![0, 0] S5000x128.size inb_S5000x128_S5000x128_0_0

/-- The output block after the body: its one store, over the three input blocks. -/
def outBlock (x0 : Vec F S5000x512 .f32) (x1 : Vec F S512x128 .f32) (x2 : Vec F S1x128 .f32) : Vec F S5000x128 .f32 :=
  View.canon [⟨rOut, k0_pay1 (View.ld x0 rFeat) (View.ld x1 rWeight) (View.ld x2 rBias)⟩]

/-- The one store covers the output block. -/
theorem outCover (p0 : Vec F S5000x128 .f32) (y : S5000x128.Idx) :
    ∃ pc ∈ ([⟨rOut, p0⟩] : List (View.Piece (Elt F) S5000x128 .f32)), y ∈ pc.1.set :=
  View.cover_of_tiled [⟨rOut, p0⟩] S5000x128.size (by rfl) y

/-! ## The body's triple -/

set_option maxHeartbeats 1000000 in
/-- The body on whole staging buffers, the inputs' at contents `x0 x1 x2` and the output's at anything, runs to the
    continuation with the inputs' as they were and the output's at `outBlock` of them. -/
theorem sound_kernel (c : Dev nD) (E : Set ℕ) (i : grid0.Coords) (arg1 : Memref sig .tc .vmem S5000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x512 .f32) (x1 : Vec F S512x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outBlock x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-! ## The pipeline's proof data -/

/-- The arrays as the region finds them; after the body each input buffer at its block and the output buffer at
    `outBlock` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outBlock (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; the four window arrays end at what the proof data gives and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Region

end
-- ==== Proof.Projection.lean ====
/-
  The projection the program ends with, as one function of three arrays.

  Entry (r, j) of the result is the inner product of row r of a 50000 x 512 feature array with column j of a
  512 x 128 weight array, plus entry j of a 1 x 128 bias row: a sum of 512 products of extended reals and one more
  summand. Both programs compute it; they differ only in how the sum is cut into blocks of rows.
-/
import Idealize.ShloMosaic.PureOps.Ideal
import Idealize.ShloMosaic.Lib.ValueIdx

noncomputable section

namespace Cert.Projection

open Idealize.ShloMosaic

abbrev SFeat : Shape := ⟨2, ![50000, 512]⟩
abbrev SWeight : Shape := ⟨2, ![512, 128]⟩
abbrev SBias : Shape := ⟨2, ![1, 128]⟩
abbrev SOut : Shape := ⟨2, ![50000, 128]⟩

/-- The feature entry (r, k) that result entry (r, j) multiplies at position k of its sum. -/
abbrev featAt (i : SOut.Idx) (k : Fin 512) : SFeat.Idx := fun a => match a with
  | ⟨0, _⟩ => ⟨(i 0).val, (i 0).isLt⟩
  | ⟨1, _⟩ => ⟨k.val, k.isLt⟩

/-- The weight entry (k, j) that result entry (r, j) multiplies at position k of its sum. -/
abbrev weightAt (i : SOut.Idx) (k : Fin 512) : SWeight.Idx := fun a => match a with
  | ⟨0, _⟩ => ⟨k.val, k.isLt⟩
  | ⟨1, _⟩ => ⟨(i 1).val, (i 1).isLt⟩

/-- The bias entry (0, j) that result entry (r, j) adds. -/
abbrev biasAt (i : SOut.Idx) : SBias.Idx := fun a => match a with
  | ⟨0, _⟩ => ⟨0, Nat.one_pos⟩
  | ⟨1, _⟩ => ⟨(i 1).val, (i 1).isLt⟩

/-- Features times weights plus bias, entry by entry. -/
def project (h : SFeat.Idx → EReal) (w : SWeight.Idx → EReal) (b : SBias.Idx → EReal) : SOut.Idx → EReal :=
  fun i => (∑ k : Fin 512, h (featAt i k) * w (weightAt i k)) + b (biasAt i)

end Cert.Projection

end
-- ==== Proof.KernelValue.lean ====
/-
  What the region leaves in the output array, as one function of the three arrays it reads.

  At grid point t the body multiplies rows 5000 t … 5000 t + 4999 of the feature array with the whole weight array on
  the matrix unit, into a zero accumulator, adds the bias row to every row of the product and stores the block of 5000
  rows. Entry (p, q) of that block is the sum over k of feature (5000 t + p, k) times weight (k, q), plus bias q: entry
  (5000 t + p, q) of the projection. Row r of the array lies in the block of point r / 5000, so the ten blocks cover the
  array and it ends at the projection.
-/
import proofs.«110258_j5179730559345_1_alg».proof.Proof.KernelIdealFrame
import proofs.«110258_j5179730559345_1_alg».proof.Proof.Projection
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Cert.KernelIdeal.Region Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The three arrays the region reads, as it finds them. -/
abbrev featArr (c : Dev nD) : Cert.Projection.SFeat.Idx → EReal := V m c main_v53
abbrev weightArr (c : Dev nD) : Cert.Projection.SWeight.Idx → EReal := V m c main_v54
abbrev biasArr (c : Dev nD) : Cert.Projection.SBias.Idx → EReal := V m c main_v55

/-! ## One block's product at an entry -/

/-- The body's loads and its store start at the block's corner. -/
theorem corner_zero : (![0, 0] : Fin 2 → Nat) = fun _ => 0 := funext fun a => by fin_cases a <;> rfl

/-- Entry (p, k) of a feature block: what block entry (p, q) multiplies at position k of its sum. -/
abbrev rowAt (j : S5000x128.Idx) (k : Fin 512) : S5000x512.Idx := fun a => match a with
  | ⟨0, _⟩ => ⟨(j 0).val, (j 0).isLt⟩
  | ⟨1, _⟩ => ⟨k.val, k.isLt⟩

/-- Entry (k, q) of the weight block: what block entry (p, q) multiplies at position k of its sum. -/
abbrev colAt (j : S5000x128.Idx) (k : Fin 512) : S512x128.Idx := fun a => match a with
  | ⟨0, _⟩ => ⟨k.val, k.isLt⟩
  | ⟨1, _⟩ => ⟨(j 1).val, (j 1).isLt⟩

/-- Entry (0, q) of the bias row: what block entry (p, q) adds. -/
abbrev biasRowAt (j : S5000x128.Idx) : S1x128.Idx := fun a => match a with
  | ⟨0, _⟩ => ⟨0, Nat.one_pos⟩
  | ⟨1, _⟩ => ⟨(j 1).val, (j 1).isLt⟩

/-- The left operand's row is the result's row. -/
theorem lhs_row (j : S5000x128.Idx) (q : dot_S5000x512_S512x128_S5000x128_1_0_0_1_n_n.contr.Idx) :
    (dot_S5000x512_S512x128_S5000x128_1_0_0_1_n_n.lhsIdx j q 0).val = (j 0).val := by
  unfold DotDims.lhsIdx
  rw [dif_neg (show ¬(0 : Fin S5000x512.rank) ∈ dot_S5000x512_S512x128_S5000x128_1_0_0_1_n_n.lhsBatch by decide), dif_pos (show (0 : Fin S5000x512.rank) ∈ dot_S5000x512_S512x128_S5000x128_1_0_0_1_n_n.lhsNonContracting by decide)]
  rfl
/-- The left operand's column is the summation position. -/
theorem lhs_col (j : S5000x128.Idx) (q : dot_S5000x512_S512x128_S5000x128_1_0_0_1_n_n.contr.Idx) :
    (dot_S5000x512_S512x128_S5000x128_1_0_0_1_n_n.lhsIdx j q 1).val = (q ⟨0, by decide⟩).val :=
  dot_S5000x512_S512x128_S5000x128_1_0_0_1_n_n.lhsIdx_val_of_single rfl j q
/-- The right operand's row is the summation position. -/
theorem rhs_row (j : S5000x128.Idx) (q : dot_S5000x512_S512x128_S5000x128_1_0_0_1_n_n.contr.Idx) :
    (dot_S5000x512_S512x128_S5000x128_1_0_0_1_n_n.rhsIdx j q 0).val = (q ⟨0, by decide⟩).val :=
  dot_S5000x512_S512x128_S5000x128_1_0_0_1_n_n.rhsIdx_val_of_single rfl j q
/-- The right operand's column is the result's column. -/
theorem rhs_col (j : S5000x128.Idx) (q : dot_S5000x512_S512x128_S5000x128_1_0_0_1_n_n.contr.Idx) :
    (dot_S5000x512_S512x128_S5000x128_1_0_0_1_n_n.rhsIdx j q 1).val = (j 1).val := by
  unfold DotDims.rhsIdx
  rw [dif_neg (show ¬(1 : Fin S512x128.rank) ∈ dot_S5000x512_S512x128_S5000x128_1_0_0_1_n_n.rhsBatch by decide), dif_pos (show (1 : Fin S512x128.rank) ∈ dot_S5000x512_S512x128_S5000x128_1_0_0_1_n_n.rhsNonContracting by decide)]
  rfl

/-- The matrix unit's product into a zero accumulator, at an entry: the sum over the 512 positions of row times
    column. -/
theorem product_apply (y0 : FVec Ideal S5000x512 .bf16) (y1 : FVec Ideal S512x128 .bf16) (j : S5000x128.Idx) :
    matmul (F := Ideal) dot_S5000x512_S512x128_S5000x128_1_0_0_1_n_n none y0 y1 (constant (F := Ideal) S5000x128 .f32 0x00000000#32) j
      = ∑ k : Fin 512, y0 (rowAt j k) * y1 (colAt j k) := by
  simp only [matmul]
  rw [Ideal.matmul_constant_zero_apply, ← Equiv.sum_comp (ValueIdx.contrEquiv1 dot_S5000x512_S512x128_S5000x128_1_0_0_1_n_n 512 rfl rfl).symm]
  refine Finset.sum_congr rfl fun k _ => ?_
  have hk := ValueIdx.contrEquiv1_symm_val dot_S5000x512_S512x128_S5000x128_1_0_0_1_n_n 512 rfl rfl k
  have el : dot_S5000x512_S512x128_S5000x128_1_0_0_1_n_n.lhsIdx j ((ValueIdx.contrEquiv1 dot_S5000x512_S512x128_S5000x128_1_0_0_1_n_n 512 rfl rfl).symm k) = rowAt j k := funext fun a => Fin.ext (by
    match a with
    | ⟨0, _⟩ => exact lhs_row _ _
    | ⟨1, _⟩ => exact (lhs_col _ _).trans hk)
  have er : dot_S5000x512_S512x128_S5000x128_1_0_0_1_n_n.rhsIdx j ((ValueIdx.contrEquiv1 dot_S5000x512_S512x128_S5000x128_1_0_0_1_n_n 512 rfl rfl).symm k) = colAt j k := funext fun a => Fin.ext (by
    match a with
    | ⟨0, _⟩ => exact (rhs_row _ _).trans hk
    | ⟨1, _⟩ => exact rhs_col _ _)
  rw [el, er]

/-- The bias row spread over the 5000 rows, at an entry: the row's entry in that column. -/
theorem spread_apply (y2 : FVec Ideal S1x128 .f32) (j : S5000x128.Idx) :
    broadcastTo S5000x128 y2 broadcasts_S1x128_S5000x128 j = y2 (biasRowAt j) := by
  refine broadcastTo_apply y2 broadcasts_S1x128_S5000x128 j (biasRowAt j) fun a => ?_
  match a with
  | ⟨0, _⟩ => rfl
  | ⟨1, _⟩ => rfl

/-- The body's arithmetic at an entry (p, q) of the block: row p of the feature block times column q of the weight
    block, plus the bias row's entry q. The casts to the shorter format are the identity on extended reals. -/
theorem payload_apply (x0 : Vec Ideal S5000x512 .f32) (x1 : Vec Ideal S512x128 .f32) (x2 : Vec Ideal S1x128 .f32) (j : S5000x128.Idx) :
    k0_pay1 (F := Ideal) x0 x1 x2 j = (∑ k : Fin 512, x0 (rowAt j k) * x1 (colAt j k)) + x2 (biasRowAt j) := by
  unfold k0_pay1
  simp only [shapeCast_self]
  rw [ValueIdx.addf_apply, product_apply, spread_apply]
  rfl

/-! ## The blocks on the grid -/

/-- The windows' index maps over the ten points: at point t the feature block and the output block are the t-th
    blocks of 5000 rows, all columns; the weight array and the bias row are one block each, the same at every point. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (p, k) of point t's feature block is the array's entry (5000 t + p, k): the feature entry that the output
    array's entry under block entry (p, q) multiplies at position k. -/
theorem feat_emb (t : Fin cfg0.N) (y : S5000x128.Idx) (k : Fin 512) :
    ((cfg0.win 0).blk t).view.emb (rowAt y k) = Cert.Projection.featAt (((cfg0.win 3).blk t).view.emb y) k := by
  obtain ⟨e0, e1, -, -, -, -, -, -⟩ := index_facts t
  funext a; apply Fin.ext
  match a with
  | ⟨0, _⟩ => show win0_0.index t (0 : Fin 2) * 5000 + 1 * (y 0).val = win0_3.index t (0 : Fin 2) * 5000 + 1 * (y 0).val; omega
  | ⟨1, _⟩ => show win0_0.index t (1 : Fin 2) * 512 + 1 * k.val = k.val; omega

/-- Entry (k, q) of the weight block is the array's entry (k, q). -/
theorem weight_emb (t : Fin cfg0.N) (y : S5000x128.Idx) (k : Fin 512) :
    ((cfg0.win 1).blk t).view.emb (colAt y k) = Cert.Projection.weightAt (((cfg0.win 3).blk t).view.emb y) k := by
  obtain ⟨-, -, e2, e3, -, -, -, e7⟩ := index_facts t
  funext a; apply Fin.ext
  match a with
  | ⟨0, _⟩ => show win0_1.index t (0 : Fin 2) * 512 + 1 * k.val = k.val; omega
  | ⟨1, _⟩ => show win0_1.index t (1 : Fin 2) * 128 + 1 * (y 1).val = win0_3.index t (1 : Fin 2) * 128 + 1 * (y 1).val; omega

/-- Entry (0, q) of the bias block is the row's entry (0, q). -/
theorem bias_emb (t : Fin cfg0.N) (y : S5000x128.Idx) :
    ((cfg0.win 2).blk t).view.emb (biasRowAt y) = Cert.Projection.biasAt (((cfg0.win 3).blk t).view.emb y) := by
  obtain ⟨-, -, -, -, e4, e5, -, e7⟩ := index_facts t
  funext a; apply Fin.ext
  match a with
  | ⟨0, _⟩ => show win0_2.index t (0 : Fin 2) * 1 + 1 * 0 = 0; omega
  | ⟨1, _⟩ => show win0_2.index t (1 : Fin 2) * 128 + 1 * (y 1).val = win0_3.index t (1 : Fin 2) * 128 + 1 * (y 1).val; omega

/-- An entry of point t's feature block is the array's entry under it. -/
theorem feat_block_apply (c : Dev nD) (t : Fin cfg0.N) (x : S5000x512.Idx) :
    iblk m c 0 t x = featArr m c (((cfg0.win 0).blk t).view.emb x) := rfl
/-- An entry of the weight block is the array's entry under it. -/
theorem weight_block_apply (c : Dev nD) (t : Fin cfg0.N) (x : S512x128.Idx) :
    iblk m c 1 t x = weightArr m c (((cfg0.win 1).blk t).view.emb x) := rfl
/-- An entry of the bias block is the row's entry under it. -/
theorem bias_block_apply (c : Dev nD) (t : Fin cfg0.N) (x : S1x128.Idx) :
    iblk m c 2 t x = biasArr m c (((cfg0.win 2).blk t).view.emb x) := rfl

/-- Two sums of 512 products plus one more summand agree when they agree factor by factor. -/
theorem sum_add_congr (f f' g g' : Fin 512 → EReal) (b b' : EReal) (hf : ∀ k, f k = f' k) (hg : ∀ k, g k = g' k) (hb : b = b') :
    (∑ k : Fin 512, f k * g k) + b = (∑ k : Fin 512, f' k * g' k) + b' := by
  rw [hb]; exact congrArg (· + b') (Finset.sum_congr rfl fun k _ => by rw [hf k, hg k])

/-- What point t writes back is block t of the projection of the three arrays: entry (p, q) of the block is the
    array's entry (5000 t + p, q), whose row of features is row p of point t's feature block. -/
theorem flushed_eq (c : Dev nD) (t : Fin cfg0.N) :
    (dats (F := Ideal) m 0 c).flushed 3 t
      = ((cfg0.win 3).blk t).view.read (Elt Ideal) (Cert.Projection.project (featArr m c) (weightArr m c) (biasArr m c)) := by
  show (cfg0.win 3).cut (grid0.coords t) ((dats (F := Ideal) m 0 c).after 3 t) = _
  rw [after0_3]
  unfold outBlock
  rw [View.canon_unit_zero corner_zero]
  simp only [View.ld_unit_zero (S := S5000x512) corner_zero, View.ld_unit_zero (S := S512x128) corner_zero, View.ld_unit_zero (S := S1x128) corner_zero]
  funext y
  show k0_pay1 (F := Ideal) (iblk m c 0 t) (iblk m c 1 t) (iblk m c 2 t) y
    = Cert.Projection.project (featArr m c) (weightArr m c) (biasArr m c) (((cfg0.win 3).blk t).view.emb y)
  refine (payload_apply (iblk m c 0 t) (iblk m c 1 t) (iblk m c 2 t) y).trans ?_
  unfold Cert.Projection.project
  exact sum_add_congr _ _ _ _ _ _
    (fun k => (feat_block_apply m c t (rowAt y k)).trans (congrArg (featArr m c) (feat_emb t y k)))
    (fun k => (weight_block_apply m c t (colAt y k)).trans (congrArg (weightArr m c) (weight_emb t y k)))
    ((bias_block_apply m c t (biasRowAt y)).trans (congrArg (biasArr m c) (bias_emb t y)))

/-- An entry of the output array is in point t's block iff each coordinate is in the block's range on its axis. -/
theorem mem_block (t : Fin cfg0.N) (i : Cert.Projection.SOut.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v56).slice (win0_3.rect t)).set ↔ _
  rw [View.set_slice_whole, Rect.mem_set_unit]
  exact Iff.rfl

/-- Row r of the output array lies in the block of point r / 5000, and every point writes its block back. -/
theorem blocks_cover (i : Cert.Projection.SOut.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hlt : (i 0).val / 5000 < cfg0.N := by show (i 0).val / 5000 < 10; omega
  obtain ⟨-, -, -, -, -, -, e6, e7⟩ := index_facts ⟨(i 0).val / 5000, hlt⟩
  have e6' : win0_3.index ⟨(i 0).val / 5000, hlt⟩ (0 : Fin 2) = (i 0).val / 5000 := e6
  refine ⟨⟨(i 0).val / 5000, hlt⟩, flush0_3 _, ?_⟩
  rw [mem_block]
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    omega
  | ⟨1, _⟩ =>
    show win0_3.index ⟨(i 0).val / 5000, hlt⟩ (1 : Fin 2) * 128 ≤ (i 1).val ∧ (i 1).val < win0_3.index ⟨(i 0).val / 5000, hlt⟩ (1 : Fin 2) * 128 + 128
    omega

/-- After the ten row blocks have been written back, the output array is the projection of the three arrays. -/
theorem result_eq (c : Dev nD) :
    ((dats (F := Ideal) m 0 c).arrAt 3 cfg0.N : Cert.Projection.SOut.Idx → EReal)
      = Cert.Projection.project (featArr m c) (weightArr m c) (biasArr m c) :=
  (dats (F := Ideal) m 0 c).arrAt_eq_of_cover 3 _ (fun t _ => flushed_eq m c t) blocks_cover

end Cert.KernelIdeal.RegionValue

end
-- ==== Proof.HostTerms.lean ====
/-
  The host computation both programs share, and the one place where they differ.

  From the node features x (50000 x 128) and the edge list (2 x 800000 words: row 0 the sources, row 1 the
  destinations) both programs build the 50000 x 512 feature array [x, T1, T2, T3] of a three-term recurrence
  T1 = P x, T2 = 2 P T1 - x, T3 = 2 P T2 - T1, where P averages over incoming edges: (P h)(v, c) is the sum of
  h(source e, c) over the edges e whose destination is v, divided by max(in-degree of v, 1). A negative source index
  is wrapped by adding 50000 before the rows are gathered; a destination that is no node receives nothing.

  The two programs spell P with the same gather, the same accumulating scatter and the same division. They differ in
  the in-degree alone: one program counts it once, accumulating a vector of 800000 ones into a vector of 50000 zeros
  and turning the result into a column afterwards; the other counts it anew before every division, accumulating a
  column of ones into a column of zeros. Over the extended reals both are, at node v, the number of edges whose
  destination word read signed is v, so the two feature arrays are one array.
-/
import proofs.«110258_j5179730559345_1_alg».proof.Proof.KernelIdealFrame

set_option maxRecDepth 16384

noncomputable section

namespace Cert.HostSide

open Cert.KernelIdeal Cert.KernelIdeal.Gen Cert.KernelIdeal.Region
open Idealize.ShloMosaic Idealize.ShloMosaic.TcCoe Idealize.SL.Sem Idealize.ShloMosaic.StableHlo

/-! ## The shared terms, at any float family -/

section Terms

variable {F : FTy → Type} [FloatOps F]

/-- The edges' source words. -/
def edgeSrc (ei : (⟨S2x800000, .i32⟩ : BufTy).Contents (Elt F)) : (⟨S800000, .i32⟩ : BufTy).Contents (Elt F) :=
  shapeCast _ (extractStridedSlice S1x800000 ![0, 0] ei slices_S2x800000_S1x800000_0_0) shapeCasts_S1x800000_S800000

/-- The edges' destination words. -/
def edgeDst (ei : (⟨S2x800000, .i32⟩ : BufTy).Contents (Elt F)) : (⟨S800000, .i32⟩ : BufTy).Contents (Elt F) :=
  shapeCast _ (extractStridedSlice S1x800000 ![1, 0] ei slices_S2x800000_S1x800000_1_0) shapeCasts_S1x800000_S800000

/-- The destinations as a column of scatter starts. -/
def dstCol (ei : (⟨S2x800000, .i32⟩ : BufTy).Contents (Elt F)) : (⟨S800000x1, .i32⟩ : BufTy).Contents (Elt F) :=
  broadcastInDim S800000x1 ![0] bcast_S800000_S800000x1_0 (edgeDst ei)

/-- The sources, a negative one moved up by the number of nodes, as a column of gather starts. -/
def srcCol (ei : (⟨S2x800000, .i32⟩ : BufTy).Contents (Elt F)) : (⟨S800000x1, .i32⟩ : BufTy).Contents (Elt F) :=
  broadcastInDim S800000x1 ![0] bcast_S800000_S800000x1_0
    (select (cmpi .slt (edgeSrc ei) (broadcastInDim S800000 ![] bcast_S_S800000 (constantI S_ 32 0#32)))
      (addi (edgeSrc ei) (broadcastInDim S800000 ![] bcast_S_S800000 (constantI S_ 32 50000#32))) (edgeSrc ei))

/-- The in-degree column counted once, as a vector: ones accumulated into zeros at the destinations, at least one. -/
def inDegree (ei : (⟨S2x800000, .i32⟩ : BufTy).Contents (Elt F)) : (⟨S50000x1, .f32⟩ : BufTy).Contents (Elt F) :=
  broadcastInDim S50000x1 ![0] bcast_S50000_S50000x1_0
    (maximumf
      (Host.scatterAdd scatter_S50000_S800000x1_S800000_n_0_0_1
        (broadcastInDim S50000 ![] bcast_S_S50000 (constant S_ .f32 0x00000000#32)) (dstCol ei)
        (broadcastInDim S800000 ![] bcast_S_S800000 (constant S_ .f32 0x3F800000#32)))
      (broadcastInDim S50000 ![] bcast_S_S50000 (constant S_ .f32 0x3F800000#32)))

/-- One averaging step P: gather the source rows, accumulate them at the destinations, divide by the degree column. -/
def meanStep (deg : (⟨S50000x1, .f32⟩ : BufTy).Contents (Elt F)) (dst idx : (⟨S800000x1, .i32⟩ : BufTy).Contents (Elt F))
    (h : (⟨S50000x128, .f32⟩ : BufTy).Contents (Elt F)) : (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32)) dst
      (Host.gather gather_S50000x128_S800000x1_S800000x128_1_0_n_n_0_1_1128 h idx))
    (broadcastInDim S50000x128 ![0, 1] bcast_S50000x1_S50000x128_0_1 deg)

/-- Twice an array. -/
def twice (h : (⟨S50000x128, .f32⟩ : BufTy).Contents (Elt F)) : (⟨S50000x128, .f32⟩ : BufTy).Contents (Elt F) :=
  mulf (broadcastInDim S50000x128 ![] bcast_S_S50000x128 (constant S_ .f32 0x40000000#32)) h

/-- T1 = P x. -/
def term1 (deg : (⟨S50000x1, .f32⟩ : BufTy).Contents (Elt F)) (dst idx : (⟨S800000x1, .i32⟩ : BufTy).Contents (Elt F))
    (x : (⟨S50000x128, .f32⟩ : BufTy).Contents (Elt F)) : (⟨S50000x128, .f32⟩ : BufTy).Contents (Elt F) :=
  meanStep deg dst idx x

/-- T2 = 2 P T1 - x. -/
def term2 (deg : (⟨S50000x1, .f32⟩ : BufTy).Contents (Elt F)) (dst idx : (⟨S800000x1, .i32⟩ : BufTy).Contents (Elt F))
    (x : (⟨S50000x128, .f32⟩ : BufTy).Contents (Elt F)) : (⟨S50000x128, .f32⟩ : BufTy).Contents (Elt F) :=
  subf (twice (meanStep deg dst idx (term1 deg dst idx x))) x

/-- T3 = 2 P T2 - T1. -/
def term3 (deg : (⟨S50000x1, .f32⟩ : BufTy).Contents (Elt F)) (dst idx : (⟨S800000x1, .i32⟩ : BufTy).Contents (Elt F))
    (x : (⟨S50000x128, .f32⟩ : BufTy).Contents (Elt F)) : (⟨S50000x128, .f32⟩ : BufTy).Contents (Elt F) :=
  subf (twice (meanStep deg dst idx (term2 deg dst idx x))) (term1 deg dst idx x)

/-- The feature array [x, T1, T2, T3], joined along the columns. -/
def features (deg : (⟨S50000x1, .f32⟩ : BufTy).Contents (Elt F)) (dst idx : (⟨S800000x1, .i32⟩ : BufTy).Contents (Elt F))
    (x : (⟨S50000x128, .f32⟩ : BufTy).Contents (Elt F)) : (⟨S50000x512, .f32⟩ : BufTy).Contents (Elt F) :=
  concatenate S50000x512 1 [⟨S50000x128, x⟩, ⟨S50000x128, term1 deg dst idx x⟩, ⟨S50000x128, term2 deg dst idx x⟩,
    ⟨S50000x128, term3 deg dst idx x⟩] concatenates_S50000x128_S50000x128_S50000x128_S50000x128_S50000x512_d1

end Terms

end Cert.HostSide

end
-- ==== Proof.HostFound.lean ====
/-
  What the region finds in its three input arrays, as terms of the arguments.

  Running the seventy host operations in order from the launch contents leaves the feature array at the shared term
  [x, T1, T2, T3] with the degree counted once, the weight array at the transposed weights and the bias array at the
  bias vector recast as one row.
-/
import proofs.«110258_j5179730559345_1_alg».proof.Proof.HostTerms
import proofs.«110258_j5179730559345_1_alg».proof.Proof.Gen.ReferenceIdeal.Read
import Idealize.ShloMosaic.Lib.StableHlo.Run
set_option maxRecDepth 16384

noncomputable section

namespace Cert.HostSide

open Cert.KernelIdeal Cert.KernelIdeal.Gen Cert.KernelIdeal.Region
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 8000000 in
/-- The feature array: [x, T1, T2, T3] with the degree counted once. -/
theorem features_found (c : Dev nD) :
    (V m c main_v53 : (⟨S50000x512, .f32⟩ : BufTy).Contents (Elt F))
      = features (inDegree (m ((c.tc : Thread nD τ).loc main_arg1))) (dstCol (m ((c.tc : Thread nD τ).loc main_arg1)))
          (srcCol (m ((c.tc : Thread nD τ).loc main_arg1))) (m ((c.tc : Thread nD τ).loc main_arg0)) := by
  dsimp only [V, hostOps0]
  after_results_simp
  rfl

set_option maxHeartbeats 4000000 in
/-- The weight array: the weight argument transposed, as the other program transposes it. -/
theorem weights_found (c : Dev nD) :
    (V m c main_v54 : (⟨S512x128, .f32⟩ : BufTy).Contents (Elt F))
      = Cert.ReferenceIdeal.Read.val_main_v65 (F := F) (m ((c.tc : Thread nD τ).loc main_arg2)) := by
  dsimp only [V, hostOps0]
  after_results
  rfl

set_option maxHeartbeats 4000000 in
/-- The bias array: the bias argument as one row. -/
theorem bias_found (c : Dev nD) :
    (V m c main_v55 : (⟨S1x128, .f32⟩ : BufTy).Contents (Elt F))
      = shapeCast S1x128 (m ((c.tc : Thread nD τ).loc main_arg3)) shapeCasts_S128_S1x128 := by
  dsimp only [V, hostOps0]
  after_results
  rfl

end Cert.HostSide

end
-- ==== Proof.LibRows.lean ====
/-
  Row gathers and accumulating row scatters read at an index.

  A table of N rows of width C is read, or accumulated into, at rows named by a column of n start indices
  (an [n × 1] array of words). Reading: result row p is the table's row at start index p, read signed and clamped
  into [0, N − 1]. Accumulating: update row e lands on the operand row its start index names, read signed and NOT
  clamped, and is dropped when that is no row of the operand; entry (r, c) of the result is the operand's entry plus the
  sum of the entries (e, c) of the update rows e that land on r.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibRows

open Idealize.ShloMosaic Idealize.ShloMosaic.ValueIdx Idealize.ShloMosaic.StableHlo.Predicate

/-- The table row a start index names when it is READ: the word read signed, clamped into [0, N − 1]. -/
def rowOf {N n w : ℕ} (hN : 0 < N) (idx : IVec ⟨2, ![n, 1]⟩ w) (p : Fin n) : Fin N :=
  ⟨min (idx (ixP p)).toInt.toNat (N - 1), by omega⟩

/-- A row gather read at (p, q): the table at (row of start index p, q). The five hypotheses are the printed
    dimension numbers, each closed by `rfl` at a use. -/
theorem gather_rows {α : Type} {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (hN : 0 < N) (p : Fin n) (q : Fin C) :
    Host.gather d x idx (ix2 p q) = x (ix2 (rowOf hN idx p) q) := by
  unfold Host.gather
  congr 1
  funext a
  apply Fin.ext
  have hnb : ∀ a : Fin 2, a ∉ d.operandBatchingDims := fun a => by rw [hob]; exact List.not_mem_nil
  -- the result's batch axes are axis 0 alone, its offset axes axis 1 alone
  have hbd : ∀ X ∈ d.batchDims, X = (0 : Fin 2) := by
    intro X hX
    have : d.batchDims = [(0 : Fin 2)] := by unfold GatherDims.batchDims; rw [hoff]; rfl
    rw [this] at hX; exact List.mem_singleton.mp hX
  have hod : ∀ X ∈ d.offsetDims, X = (1 : Fin 2) := by
    intro X hX; rw [hoff] at hX; exact List.mem_singleton.mp hX
  have e0 : ∀ X : Fin 2, X = 0 → ((ix2 p q : (⟨2, ![n, C]⟩ : Shape).Idx) X).val = p.val := by rintro _ rfl; rfl
  have e1 : ∀ X : Fin 2, X = 1 → ((ix2 p q : (⟨2, ![n, C]⟩ : Shape).Idx) X).val = q.val := by rintro _ rfl; rfl
  match a with
  | ⟨0, _⟩ =>
    -- axis 0 is collapsed and start-indexed: its slice has size 1, so the start is clamped into [0, N − 1]
    have hsl : d.sliceSizes 0 = 1 := d.slice_collapsed 0 (by rw [hcoll]; exact List.mem_singleton.mpr rfl)
    have hk : (0 : Fin 2) ∉ d.sKept := by rw [GatherDims.mem_sKept, hcoll]; simp
    have hm : (0 : Fin 2) ∈ d.startIndexMap := by rw [hsim]; exact List.mem_singleton.mpr rfl
    show d.start (ix2 p q) idx 0 + d.batchCoord (ix2 p q) 0 + d.offCoord (ix2 p q) 0 = min (idx (ixP p)).toInt.toNat (N - 1)
    rw [GatherDims.batchCoord_eq_zero _ _ _ (hnb 0), GatherDims.offCoord_eq_zero _ _ _ hk]
    unfold GatherDims.start
    rw [dif_pos hm]
    show min _ (N - d.sliceSizes 0) = _
    rw [hsl]
    congr 3
    congr 1
    funext b
    apply Fin.ext
    match b with
    | ⟨0, _⟩ =>
      unfold GatherDims.siIdx
      rw [dif_neg (by rw [hivd]; exact Nat.zero_ne_one)]
      unfold GatherDims.siCoord
      simp only [Fin.val_cast]
      exact e0 _ (hbd _ (List.getElem_mem _))
    | ⟨1, _⟩ =>
      unfold GatherDims.siIdx
      rw [dif_pos (by rw [hivd])]
      show List.idxOf (0 : Fin 2) d.startIndexMap = 0
      rw [hsim]; simp
  | ⟨1, _⟩ =>
    -- axis 1 is the one offset axis: no start, and the offset coordinate is the result's column
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hnb 1)]
    unfold GatherDims.start GatherDims.offCoord
    rw [dif_neg hm, dif_pos hk]
    simp only [Nat.zero_add, Nat.add_zero]
    exact e1 _ (hod _ (List.getElem_mem _))

/-- Where update entry (e, c) of an accumulating row scatter lands: on (r, c') exactly when start index e, read signed,
    is r and the columns agree. -/
theorem scatter_rows_resultIdx {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (e : Fin n) (c : Fin C) (r : Fin N) (c' : Fin C) :
    d.resultIdx? (ix2 e c) idx = some (ix2 r c') ↔ (idx (ixP e)).toInt = (r.val : ℤ) ∧ c = c' := by
  -- the update's scatter axes are axis 0 alone, its window axes axis 1 alone
  have hus : ∀ X ∈ d.uScatter, X = (0 : Fin 2) := by
    intro X hX
    have : d.uScatter = [(0 : Fin 2)] := by unfold ScatterDims.uScatter; rw [huw]; rfl
    rw [this] at hX; exact List.mem_singleton.mp hX
  have huwd : ∀ X ∈ d.updateWindowDims, X = (1 : Fin 2) := by
    intro X hX; rw [huw] at hX; exact List.mem_singleton.mp hX
  have e0 : ∀ X : Fin 2, X = 0 → ((ix2 e c : (⟨2, ![n, C]⟩ : Shape).Idx) X).val = e.val := by rintro _ rfl; rfl
  have e1 : ∀ X : Fin 2, X = 1 → ((ix2 e c : (⟨2, ![n, C]⟩ : Shape).Idx) X).val = c.val := by rintro _ rfl; rfl
  have hmem_sKept : ∀ a : Fin 2, a ∈ d.sKept ↔ a ∉ d.insertedWindowDims := fun a => by
    simp [ScatterDims.sKept, Shape.kept, List.mem_filter, List.mem_finRange]
  -- the start of the window: the index word, read signed, on axis 0; nothing on axis 1
  have hs0 : d.start (ix2 e c) idx 0 = (idx (ixP e)).toInt := by
    have hm : (0 : Fin 2) ∈ d.scatterDimsToOperandDims := by rw [hsd]; exact List.mem_singleton.mpr rfl
    unfold ScatterDims.start
    rw [dif_pos hm]
    congr 2
    funext b
    apply Fin.ext
    match b with
    | ⟨0, _⟩ =>
      unfold ScatterDims.siIdx
      rw [dif_neg (by rw [hivd]; exact Nat.zero_ne_one)]
      unfold ScatterDims.siCoord
      simp only [Fin.val_cast]
      exact e0 _ (hus _ (List.getElem_mem _))
    | ⟨1, _⟩ =>
      unfold ScatterDims.siIdx
      rw [dif_pos (by rw [hivd])]
      show List.idxOf (0 : Fin 2) d.scatterDimsToOperandDims = 0
      rw [hsd]; simp
  have hs1 : d.start (ix2 e c) idx 1 = 0 := by
    have hm : (1 : Fin 2) ∉ d.scatterDimsToOperandDims := by rw [hsd]; simp
    unfold ScatterDims.start
    rw [dif_neg hm]
  -- the window coordinate: nothing on the inserted axis 0; the update's column on axis 1
  have hw0 : d.window (ix2 e c) 0 = 0 := by
    have hk : (0 : Fin 2) ∉ d.sKept := by rw [hmem_sKept, hiw]; simp
    unfold ScatterDims.window
    rw [dif_neg hk]
  have hw1 : d.window (ix2 e c) 1 = c.val := by
    have hk : (1 : Fin 2) ∈ d.sKept := by rw [hmem_sKept, hiw]; simp
    unfold ScatterDims.window
    rw [dif_pos hk]
    exact e1 _ (huwd _ (List.getElem_mem _))
  have hr := r.isLt
  have hc := c.isLt
  have hc' := c'.isLt
  unfold ScatterDims.resultIdx?
  constructor
  · intro h
    split at h
    · next hin =>
      have hf := Option.some.inj h
      have h0 := congrArg (fun f => (f 0).val) hf
      have h1 := congrArg (fun f => (f 1).val) hf
      simp only [hs0, hw0, hs1, hw1] at h0 h1
      have hin0 := (hin 0).1
      rw [hs0, hw0] at hin0
      change ((idx (ixP e)).toInt + ((0 : ℕ) : ℤ)).toNat = r.val at h0
      change ((0 : ℤ) + (c.val : ℤ)).toNat = c'.val at h1
      refine ⟨by omega, Fin.ext (by omega)⟩
    · exact absurd h (by simp)
  · rintro ⟨hi, rfl⟩
    have hin : ∀ a, 0 ≤ d.start (ix2 e c) idx a + d.window (ix2 e c) a ∧
        d.start (ix2 e c) idx a + (d.window (ix2 e c) a : ℤ) < ((⟨2, ![N, C]⟩ : Shape).size a : ℤ) := by
      intro a
      match a with
      | ⟨0, _⟩ =>
        show 0 ≤ d.start (ix2 e c) idx 0 + (d.window (ix2 e c) 0 : ℤ) ∧ d.start (ix2 e c) idx 0 + (d.window (ix2 e c) 0 : ℤ) < (N : ℤ)
        rw [hs0, hw0, hi]; omega
      | ⟨1, _⟩ =>
        show 0 ≤ d.start (ix2 e c) idx 1 + (d.window (ix2 e c) 1 : ℤ) ∧ d.start (ix2 e c) idx 1 + (d.window (ix2 e c) 1 : ℤ) < (C : ℤ)
        rw [hs1, hw1]; omega
    rw [dif_pos hin]
    congr 1
    funext a
    apply Fin.ext
    match a with
    | ⟨0, _⟩ =>
      show (d.start (ix2 e c) idx 0 + (d.window (ix2 e c) 0 : ℤ)).toNat = r.val
      rw [hs0, hw0, hi]; omega
    | ⟨1, _⟩ =>
      show (d.start (ix2 e c) idx 1 + (d.window (ix2 e c) 1 : ℤ)).toNat = c.val
      rw [hs1, hw1]; omega

/-- The accumulating row scatter at the extended reals, read at (r, c): the operand's entry plus the sum over the update
    rows that land on r of their entry in column c. -/
theorem scatterAdd_rows {φ : FTy} {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (x : FVec Ideal ⟨2, ![N, C]⟩ φ) (idx : IVec ⟨2, ![n, 1]⟩ w)
    (upd : FVec Ideal ⟨2, ![n, C]⟩ φ) (r : Fin N) (c : Fin C) :
    Host.scatterAdd d x idx upd (ix2 r c)
      = x (ix2 r c) + ∑ e ∈ Finset.univ.filter (fun e : Fin n => (idx (ixP e)).toInt = (r.val : ℤ)), upd (ix2 e c) := by
  show x (ix2 r c) + ∑ j ∈ Finset.univ.filter (fun j => d.resultIdx? j idx = some (ix2 r c)), upd j = _
  congr 1
  rw [Finset.sum_filter, sum_idx2, Finset.sum_filter]
  refine Finset.sum_congr rfl fun a _ => ?_
  simp only [scatter_rows_resultIdx d huw hiw hsd hivd]
  by_cases ha : (idx (ixP a)).toInt = (r.val : ℤ)
  · simp only [ha, true_and, if_true]
    rw [Finset.sum_ite_eq']
    simp
  · simp only [ha, false_and, if_false]
    exact Finset.sum_const_zero

/-- An accumulating scatter of real entries into real entries has real entries, whatever its dimension numbers and
    indices: each entry is the operand's plus a finite sum of updates. -/
theorem scatterAdd_real {φ : FTy} {s si su : Shape} {w : ℕ} (d : ScatterDims s si su) (x : FVec Ideal s φ) (idx : IVec si w)
    (upd : FVec Ideal su φ) (hx : ∀ i, ∃ r : ℝ, x i = (r : EReal)) (hu : ∀ j, ∃ r : ℝ, upd j = (r : EReal)) (i : s.Idx) :
    ∃ r : ℝ, Host.scatterAdd d x idx upd i = (r : EReal) := by
  -- a finite sum of real updates is real
  have hsum : ∀ S : Finset su.Idx, ∃ b : ℝ, ∑ j ∈ S, upd j = (b : EReal) := by
    classical
    intro S
    induction S using Finset.induction_on with
    | empty => exact ⟨0, by rw [Finset.sum_empty, EReal.coe_zero]⟩
    | insert j S hj ih =>
      obtain ⟨b, hb⟩ := ih
      obtain ⟨u, hu'⟩ := hu j
      exact ⟨u + b, by rw [Finset.sum_insert hj, hb, hu', EReal.coe_add]⟩
  obtain ⟨a, ha⟩ := hx i
  obtain ⟨b, hb⟩ := hsum (Finset.univ.filter (fun j => d.resultIdx? j idx = some i))
  refine ⟨a + b, ?_⟩
  show x i + ∑ j ∈ Finset.univ.filter (fun j => d.resultIdx? j idx = some i), upd j = _
  rw [ha, hb, EReal.coe_add]

end Cert.LibRows

end
-- ==== Proof.LibCount.lean ====
/-
  Accumulating scatters of a vector into a vector, read at an index.

  A vector of N entries is accumulated into at entries named by a column of n start indices (an [n × 1] array of
  words); the updates are a vector of n entries, one for each start index. Update entry e lands on the operand entry
  its start index names, read signed and NOT clamped, and is dropped when that is no entry of the operand; entry r of
  the result is the operand's entry plus the sum of the update entries e that land on r. With every update 1 and the
  operand 0 this counts, for each r, the start indices equal to r.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibCount

open Idealize.ShloMosaic Idealize.ShloMosaic.ValueIdx Idealize.ShloMosaic.StableHlo.Predicate

/-- A rank-1 index set is its one coordinate's range … -/
private def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
private theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- Where update entry e of an accumulating scatter of a vector into a vector lands: on entry r exactly when start
    index e, read signed, is r. -/
theorem scatter_vec_resultIdx {N n w : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (e : Fin n) (r : Fin N) :
    d.resultIdx? (ix1 e) idx = some (ix1 r) ↔ (idx (ixP e)).toInt = (r.val : ℤ) := by
  -- the update has no window axis: its one axis is a scatter axis
  have hus : ∀ X ∈ d.uScatter, X = (0 : Fin 1) := by
    intro X hX
    have : d.uScatter = [(0 : Fin 1)] := by unfold ScatterDims.uScatter; rw [huw]; rfl
    rw [this] at hX; exact List.mem_singleton.mp hX
  have e0 : ∀ X : Fin 1, X = 0 → ((ix1 e : (⟨1, ![n]⟩ : Shape).Idx) X).val = e.val := by rintro _ rfl; rfl
  have hmem_sKept : ∀ a : Fin 1, a ∈ d.sKept ↔ a ∉ d.insertedWindowDims := fun a => by
    simp [ScatterDims.sKept, Shape.kept, List.mem_filter, List.mem_finRange]
  -- the start of the window on the operand's one axis: the index word, read signed
  have hs0 : d.start (ix1 e) idx 0 = (idx (ixP e)).toInt := by
    have hm : (0 : Fin 1) ∈ d.scatterDimsToOperandDims := by rw [hsd]; exact List.mem_singleton.mpr rfl
    unfold ScatterDims.start
    rw [dif_pos hm]
    congr 2
    funext b
    apply Fin.ext
    match b with
    | ⟨0, _⟩ =>
      unfold ScatterDims.siIdx
      rw [dif_neg (by rw [hivd]; exact Nat.zero_ne_one)]
      unfold ScatterDims.siCoord
      simp only [Fin.val_cast]
      exact e0 _ (hus _ (List.getElem_mem _))
    | ⟨1, _⟩ =>
      unfold ScatterDims.siIdx
      rw [dif_pos (by rw [hivd])]
      show List.idxOf (0 : Fin 1) d.scatterDimsToOperandDims = 0
      rw [hsd]; simp
  -- the operand's one axis is inserted: no window coordinate on it
  have hw0 : d.window (ix1 e) 0 = 0 := by
    have hk : (0 : Fin 1) ∉ d.sKept := by rw [hmem_sKept, hiw]; simp
    unfold ScatterDims.window
    rw [dif_neg hk]
  have hr := r.isLt
  unfold ScatterDims.resultIdx?
  constructor
  · intro h
    split at h
    · next hin =>
      have hf := Option.some.inj h
      have h0 := congrArg (fun f => (f 0).val) hf
      simp only [hs0, hw0] at h0
      have hin0 := (hin 0).1
      rw [hs0, hw0] at hin0
      change ((idx (ixP e)).toInt + ((0 : ℕ) : ℤ)).toNat = r.val at h0
      omega
    · exact absurd h (by simp)
  · intro hi
    have hin : ∀ a, 0 ≤ d.start (ix1 e) idx a + d.window (ix1 e) a ∧
        d.start (ix1 e) idx a + (d.window (ix1 e) a : ℤ) < ((⟨1, ![N]⟩ : Shape).size a : ℤ) := by
      intro a
      match a with
      | ⟨0, _⟩ =>
        show 0 ≤ d.start (ix1 e) idx 0 + (d.window (ix1 e) 0 : ℤ) ∧ d.start (ix1 e) idx 0 + (d.window (ix1 e) 0 : ℤ) < (N : ℤ)
        rw [hs0, hw0, hi]; omega
    rw [dif_pos hin]
    congr 1
    funext a
    apply Fin.ext
    match a with
    | ⟨0, _⟩ =>
      show (d.start (ix1 e) idx 0 + (d.window (ix1 e) 0 : ℤ)).toNat = r.val
      rw [hs0, hw0, hi]; omega

/-- The accumulating scatter of a vector into a vector at the extended reals, read at entry r: the operand's entry plus
    the sum of the updates whose start index, read signed, is r. -/
theorem scatterAdd_vec {φ : FTy} {N n w : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (x : FVec Ideal ⟨1, ![N]⟩ φ) (idx : IVec ⟨2, ![n, 1]⟩ w)
    (upd : FVec Ideal ⟨1, ![n]⟩ φ) (r : Fin N) :
    Host.scatterAdd d x idx upd (ix1 r)
      = x (ix1 r) + ∑ e ∈ Finset.univ.filter (fun e : Fin n => (idx (ixP e)).toInt = (r.val : ℤ)), upd (ix1 e) := by
  show x (ix1 r) + ∑ j ∈ Finset.univ.filter (fun j => d.resultIdx? j idx = some (ix1 r)), upd j = _
  congr 1
  rw [Finset.sum_filter, sum_idx1, Finset.sum_filter]
  refine Finset.sum_congr rfl fun a _ => ?_
  simp only [scatter_vec_resultIdx d huw hiw hsd hivd]

end Cert.LibCount

end
-- ==== Proof.HostCount.lean ====
/-
  The two in-degree counts agree over the extended reals.

  One program accumulates a vector of ones into a vector of zeros at the edges' destinations and makes the result a
  column; the other accumulates a column of ones into a column of zeros. Either way entry v is zero plus the sum of a
  one for every edge whose destination word, read signed, is v; the larger of that and one is the degree column.
-/
import proofs.«110258_j5179730559345_1_alg».proof.Proof.HostTerms
import proofs.«110258_j5179730559345_1_alg».proof.Proof.Gen.ReferenceIdeal.Read
import proofs.«110258_j5179730559345_1_alg».proof.Proof.LibRows
import proofs.«110258_j5179730559345_1_alg».proof.Proof.LibCount
import Idealize.ShloMosaic.Lib.Pipeline.Value
import Idealize.ShloMosaic.Lib.ValueIdx
set_option maxRecDepth 16384

noncomputable section

namespace Cert.HostSide

open Cert.KernelIdeal Cert.KernelIdeal.Gen Cert.KernelIdeal.Region
open Idealize.ShloMosaic Idealize.ShloMosaic.TcCoe Idealize.SL.Sem Idealize.ShloMosaic.StableHlo

open Idealize.ShloMosaic.ValueIdx Idealize.ShloMosaic.StableHlo.Predicate

/-- Both programs lay the destinations out as the same column. -/
theorem dstCol_eq {F : FTy → Type} [FloatOps F] (ei : (⟨S2x800000, .i32⟩ : BufTy).Contents (Elt F)) :
    dstCol ei = Cert.ReferenceIdeal.Read.val_main_v16 (F := F) ei := rfl

/-- Node v's degree is max(number of edges whose destination word, read signed, is v, 1), whether the ones are
    accumulated as a vector or as a column. -/
theorem inDegree_eq (ei : (⟨S2x800000, .i32⟩ : BufTy).Contents (Elt Ideal)) :
    inDegree (F := Ideal) ei = Cert.ReferenceIdeal.Read.val_main_v19 (F := Ideal) ei := by
  funext i
  obtain ⟨r, z, rfl⟩ : ∃ (r : Fin 50000) (z : Fin 1), i = ix2 r z := ⟨i 0, i 1, eq_ix2 i⟩
  unfold inDegree
  rw [broadcastInDim_apply _ bcast_S50000_S50000x1_0 _ (ix2 r z) (ix1 r) (fun a => match a with
    | ⟨0, _⟩ => by show r.val = if (50000 : Nat) = 1 then 0 else r.val; rw [if_neg (by decide)])]
  unfold Cert.ReferenceIdeal.Read.val_main_v19 Cert.ReferenceIdeal.Read.val_main_v17
  rw [maximumf_apply, maximumf_apply, Cert.LibCount.scatterAdd_vec _ rfl rfl rfl rfl, dstCol_eq,
    Cert.LibRows.scatterAdd_rows _ rfl rfl rfl rfl]
  exact congrArg₂ max (congrArg₂ (· + ·) rfl (Finset.sum_congr rfl fun e _ => rfl)) rfl

end Cert.HostSide

end
-- ==== Proof.HostOther.lean ====
/-
  The other program's feature array is the shared term [x, T1, T2, T3] at ITS degree column: it lays the same source
  and destination columns out anew before every step and counts the degree anew before every division, each time the
  same term of the edge list.
-/
import proofs.«110258_j5179730559345_1_alg».proof.Proof.HostTerms
import proofs.«110258_j5179730559345_1_alg».proof.Proof.Gen.ReferenceIdeal.Read
set_option maxRecDepth 16384

noncomputable section

namespace Cert.HostSide

open Cert.KernelIdeal Cert.KernelIdeal.Gen Cert.KernelIdeal.Region
open Idealize.ShloMosaic Idealize.ShloMosaic.TcCoe Idealize.SL.Sem Idealize.ShloMosaic.StableHlo

variable {F : FTy → Type} [FloatOps F]

set_option maxHeartbeats 4000000 in
theorem features_other (x : (⟨S50000x128, .f32⟩ : BufTy).Contents (Elt F)) (ei : (⟨S2x800000, .i32⟩ : BufTy).Contents (Elt F)) :
    Cert.ReferenceIdeal.Read.val_main_v64 (F := F) x ei
      = features (Cert.ReferenceIdeal.Read.val_main_v19 (F := F) ei) (dstCol ei) (srcCol ei) x := rfl

end Cert.HostSide

end
-- ==== Proof.RefSide.lean ====
/-
  The other program's result, read as the projection.

  Its last three operations are one contraction of the 50000 x 512 feature array with the transposed weights over the
  512 columns, the bias vector laid out as a row and repeated down the rows, and their sum: entry (r, j) is the sum
  over k of feature (r, k) times weight (k, j), plus bias j. A vector of 128 entries recast as one row of 128 and the
  same vector laid along axis 1 of a 1 x 128 array are the same row.
-/
import proofs.«110258_j5179730559345_1_alg».proof.Proof.Gen.ReferenceIdeal.Run
import proofs.«110258_j5179730559345_1_alg».proof.Proof.Gen.ReferenceIdeal.Read
import proofs.«110258_j5179730559345_1_alg».proof.Proof.Projection
import Idealize.ShloMosaic.Lib.Pipeline.Value

noncomputable section

namespace Cert.ReferenceIdeal.Projected

open Cert.ReferenceIdeal Cert.ReferenceIdeal.Gen Cert.ReferenceIdeal.Read Idealize.ShloMosaic Idealize.ShloMosaic.TcCoe Idealize.SL.Sem

/-- The bias vector recast as one row is the bias vector laid along the columns of a one-row array. -/
theorem bias_row {α : Type} (b : S128.Idx → α) (h : S128.ShapeCasts S1x128) :
    shapeCast S1x128 b h = broadcastInDim S1x128 ![1] bcast_S128_S1x128_1 b := by
  funext i
  have e : broadcastInDim S1x128 ![1] bcast_S128_S1x128_1 b i = b (idx_main_v67 i) :=
    broadcastInDim_apply _ bcast_S128_S1x128_1 b i (idx_main_v67 i) (fun a => match a with
      | ⟨0, _⟩ => by show (i 1).val = if (128 : Nat) = 1 then 0 else (i 1).val; rw [if_neg (by decide)])
  rw [e]
  exact shapeCast_apply b h i (idx_main_v67 i)
    (by rewrite [Shape.rowMajor_val_one, Shape.rowMajor_val_two]
        have h0 : (i 0).val < 1 := (i 0).isLt
        show (i 1).val = (i 0).val * 128 + (i 1).val
        omega)

/-- The result is the projection of the feature array, the transposed weights and the bias row. -/
theorem result_eq (x0 : (⟨S50000x128, .f32⟩ : BufTy).Contents (Elt Ideal)) (x1 : (⟨S2x800000, .i32⟩ : BufTy).Contents (Elt Ideal))
    (x2 : (⟨S128x512, .f32⟩ : BufTy).Contents (Elt Ideal)) (x3 : (⟨S128, .f32⟩ : BufTy).Contents (Elt Ideal)) :
    val_main_v69 (F := Ideal) x0 x1 x2 x3
      = Cert.Projection.project (val_main_v64 (F := Ideal) x0 x1) (val_main_v65 (F := Ideal) x2) (val_main_v67 (F := Ideal) x3) := by
  funext i
  rw [val_main_v69_apply, val_main_v66_apply, val_main_v68_apply]
  rfl

end Cert.ReferenceIdeal.Projected

end
-- ==== Proof.KernelRun.lean ====
/-
  The idealized program's run, with its result named.

  The region leaves in the output array the projection of the three arrays it finds; those are the feature array
  [x, T1, T2, T3], the transposed weights and the bias row, each a term of the arguments; and with the in-degree counted
  either way the feature array is the other program's. So the result array ends at the other program's result term
  of the arguments, and the arguments are unchanged.
-/
import proofs.«110258_j5179730559345_1_alg».proof.Proof.KernelValue
import proofs.«110258_j5179730559345_1_alg».proof.Proof.HostFound
import proofs.«110258_j5179730559345_1_alg».proof.Proof.HostCount
import proofs.«110258_j5179730559345_1_alg».proof.Proof.HostOther
import proofs.«110258_j5179730559345_1_alg».proof.Proof.RefSide

noncomputable section

namespace Cert.KernelIdeal.Result

open Cert.KernelIdeal Cert.KernelIdeal.Gen Cert.KernelIdeal.Region Idealize.ShloMosaic Idealize.ShloMosaic.TcCoe Idealize.SL.Sem

variable (m : (ℓ : Loc nD τ sig) → Buf (Elt Ideal) ℓ) (ρ : Dev nD → PrngReg)

/-- The common result: the other program's last stage, at this program's arguments. -/
abbrev target (c : Dev nD) : Cert.Projection.SOut.Idx → EReal :=
  Cert.ReferenceIdeal.Read.val_main_v69 (F := Ideal) (m ((c.tc : Thread nD τ).loc main_arg0)) (m ((c.tc : Thread nD τ).loc main_arg1))
    (m ((c.tc : Thread nD τ).loc main_arg2)) (m ((c.tc : Thread nD τ).loc main_arg3))

/-- The feature array the region finds is the other program's feature stage. -/
theorem feat_eq (c : Dev nD) :
    Cert.KernelIdeal.RegionValue.featArr m c
      = Cert.ReferenceIdeal.Read.val_main_v64 (F := Ideal) (m ((c.tc : Thread nD τ).loc main_arg0)) (m ((c.tc : Thread nD τ).loc main_arg1)) := by
  show (V m c main_v53 : (⟨S50000x512, .f32⟩ : BufTy).Contents (Elt Ideal)) = _
  rw [Cert.HostSide.features_found, Cert.HostSide.inDegree_eq, ← Cert.HostSide.features_other]

/-- The bias row the region finds is the other program's bias row. -/
theorem bias_eq (c : Dev nD) :
    Cert.KernelIdeal.RegionValue.biasArr m c
      = Cert.ReferenceIdeal.Read.val_main_v67 (F := Ideal) (m ((c.tc : Thread nD τ).loc main_arg3)) := by
  show (V m c main_v55 : (⟨S1x128, .f32⟩ : BufTy).Contents (Elt Ideal)) = _
  rw [Cert.HostSide.bias_found]
  exact Cert.ReferenceIdeal.Projected.bias_row _ _

/-- The output array after the run is the common result. -/
theorem out_eq (c : Dev nD) :
    ((dats (F := Ideal) m 0 c).arrAt 3 cfg0.N : Cert.Projection.SOut.Idx → EReal) = target m c := by
  rw [Cert.KernelIdeal.RegionValue.result_eq m c, feat_eq, bias_eq]
  show Cert.Projection.project _ (V m c main_v54 : (⟨S512x128, .f32⟩ : BufTy).Contents (Elt Ideal)) _ = _
  rw [Cert.HostSide.weights_found]
  exact (Cert.ReferenceIdeal.Projected.result_eq _ _ _ _).symm

/-- Every weakly fair execution terminates with the result array at the common result and the arguments unchanged. -/
theorem run : θ_run defs (onTc (τ := τ) (main (F := Ideal))) ⟨m, fun _ => 0, ρ⟩ fun r => ∀ c : Dev nD,
      r.2.mem ((c.tc : Thread nD τ).loc main_v56) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 3).trans (out_eq m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Result

end
-- ==== Proof.lean ====
/-
  A three-term recurrence over a graph followed by a linear layer, in two spellings.

  From node features x and an edge list both programs form T1 = P x, T2 = 2 P T1 - x, T3 = 2 P T2 - T1, where P averages
  each node's incoming neighbours (rows gathered at the edges' sources, accumulated at their destinations, divided by
  max(in-degree, 1)), join [x, T1, T2, T3] along the columns and apply a linear layer: the joined 50000 x 512 array
  times the transposed 128 x 512 weights, plus the bias. One program does the linear layer as a pipelined matrix product
  over ten blocks of 5000 rows and counts the in-degrees once as a vector; the other does one contraction over the
  whole array and counts the in-degrees as a column before each division.

  Over the extended reals the two are equal entry by entry: the in-degree of a node is the number of edges whose
  destination word is that node either way; the blocks of rows tile the result; the matrix unit's product into a zero
  accumulator, its operands rounded to a narrower format (the identity here), is the same sum of 512 products as the
  contraction. No law that fails at the infinities is used, so the inputs' finiteness is never opened.

  The frames: every host operation writes its own result buffer only, and the region's body reads its blocks and
  overwrites the whole output block, at either instance; the other program is host operations alone.
-/
import proofs.«110258_j5179730559345_1_alg».proof.Defs
import proofs.«110258_j5179730559345_1_alg».proof.Proof.Gen.Kernel
import proofs.«110258_j5179730559345_1_alg».proof.Proof.Gen.KernelIdeal
import proofs.«110258_j5179730559345_1_alg».proof.Proof.Gen.ReferenceIdeal
import proofs.«110258_j5179730559345_1_alg».proof.Proof.Gen.Pre_finite_inputs
import proofs.«110258_j5179730559345_1_alg».proof.Proof.KernelFrame
import proofs.«110258_j5179730559345_1_alg».proof.Proof.KernelIdealFrame
import proofs.«110258_j5179730559345_1_alg».proof.Proof.KernelRun
import Idealize.ShloMosaic.Adequacy
import Idealize.ShloMosaic.Init

noncomputable section

namespace Cert.Proof

open Idealize.ShloMosaic Idealize.SL.Sem

/-- The printed program runs and leaves its arguments unchanged. -/
theorem frame_kernel : Cert.frame_Kernel := fun m ρ _ => Cert.Kernel.Region.frame m ρ

/-- So does its idealization. -/
theorem frame_kernelIdeal : Cert.frame_KernelIdeal := fun m ρ _ => Cert.KernelIdeal.Region.frame m ρ

/-- The other program is host operations alone: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at one function of the arguments. -/
theorem algebraic : Cert.algebraic_KernelIdeal_ReferenceIdeal := by
  intro m ρ m' ρ' _ hagree
  refine ⟨fun c => Cert.KernelIdeal.Result.target m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v69_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
